-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x50176 : Shape := ⟨3, ![8, 128, 50176]⟩
abbrev S_ : Shape := ⟨0, ![]⟩

class Facts : Prop where
  bcast_S_S8x128x50176 : S_.BroadcastsInDim S8x128x50176 (![] : Fin 0 → Fin S8x128x50176.rank)
  reducesTo_S8x128x50176_S_d0_1_2 : S8x128x50176.ReducesTo [0, 1, 2] S_
  h_S_ : 0 < S_.numel

variable [Facts]

def fn {F : FTy → Type} [FloatOps F] (main_arg0 : FVec F S8x128x50176 .f32) (main_arg1 : FVec F S8x128x50176 .f32) : IVec S_ 1 :=
  let main_v0 : FVec F S8x128x50176 .f32 := Host.absf main_arg0
  let main_cst : FVec F S_ .f32 := constant S_ .f32 0x7F800000#32
  let main_v1 : FVec F S8x128x50176 .f32 := broadcastInDim S8x128x50176 ![] bcast_S_S8x128x50176 main_cst
  let main_v2 : IVec S8x128x50176 1 := cmpf .olt main_v0 main_v1
  let main_c : IVec S_ 1 := constantI S_ 1 1#1
  let main_v3 : IVec S_ 1 := (fun x v => Host.reduce IntOp.andi x v reducesTo_S8x128x50176_S_d0_1_2 h_S_) main_v2 main_c
  let main_v4 : FVec F S8x128x50176 .f32 := Host.absf main_arg1
  let main_cst_0 : FVec F S_ .f32 := constant S_ .f32 0x7F800000#32
  let main_v5 : FVec F S8x128x50176 .f32 := broadcastInDim S8x128x50176 ![] bcast_S_S8x128x50176 main_cst_0
  let main_v6 : IVec S8x128x50176 1 := cmpf .olt main_v4 main_v5
  let main_c_1 : IVec S_ 1 := constantI S_ 1 1#1
  let main_v7 : IVec S_ 1 := (fun x v => Host.reduce IntOp.andi x v reducesTo_S8x128x50176_S_d0_1_2 h_S_) main_v6 main_c_1
  let main_v8 : IVec S_ 1 := andi main_v3 main_v7
  main_v8
-- ==== Kernel.lean ====
abbrev S8x128x50176 : Shape := ⟨3, ![8, 128, 50176]⟩
abbrev S8x128x128 : Shape := ⟨3, ![8, 128, 128]⟩
abbrev S1x128x12544 : Shape := ⟨3, ![1, 128, 12544]⟩
abbrev S1x128x128 : Shape := ⟨3, ![1, 128, 128]⟩
abbrev S128x128 : Shape := ⟨2, ![128, 128]⟩
abbrev S128x12544 : Shape := ⟨2, ![128, 12544]⟩

abbrev nBuf : Space → Nat
  | .hbm => 3
  | .vmem => 7
  | .smem => 0
  | _ => 0

abbrev bufTy : (tb : Table) → Fin (tcTables nBuf tb) → BufTy
  | .hbm, ⟨0, _⟩ => ⟨S8x128x50176, .f32⟩
  | .hbm, ⟨1, _⟩ => ⟨S8x128x50176, .f32⟩
  | .hbm, ⟨2, _⟩ => ⟨S8x128x128, .f32⟩
  | .local _ .vmem, ⟨0, _⟩ => ⟨S1x128x12544, .f32⟩
  | .local _ .vmem, ⟨1, _⟩ => ⟨S1x128x12544, .f32⟩
  | .local _ .vmem, ⟨2, _⟩ => ⟨S1x128x12544, .f32⟩
  | .local _ .vmem, ⟨3, _⟩ => ⟨S1x128x12544, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | _, _ => ⟨S8x128x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x12544_S1x128x12544_0_0_0 : ∀ a, (![0, 0, 0] : Fin 3 → Nat) a + S1x128x12544.size a ≤ S1x128x12544.size a
  h_S1x128x12544 : 0 < S1x128x12544.numel
  shapeCasts_S1x128x12544_S128x12544 : S1x128x12544.ShapeCasts S128x12544
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S128x12544_S128x12544_S128x128_1_1_0_0_n_n_wf : DotDims.WF S128x12544 S128x12544 S128x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x12544.size a ≤ S8x128x50176.size a
  hwx0_0 : ∀ i : grid0.Coords, EltTy.bits .f32 = 32 ∨ (Rect.block (s := S8x128x50176) S1x128x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x12544.size a ≤ S8x128x50176.size a
  hwx0_1 : ∀ i : grid0.Coords, EltTy.bits .f32 = 32 ∨ (Rect.block (s := S8x128x50176) S1x128x12544.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)

variable [Facts₀]

def dot_S128x12544_S128x12544_S128x128_1_1_0_0_n_n : DotDims S128x12544 S128x12544 S128x128 where
  lhsContracting := [1]
  rhsContracting := [1]
  lhsNonContracting := [0]
  rhsNonContracting := [0]
  lhsBatch := []
  rhsBatch := []
  wf := dot_S128x12544_S128x12544_S128x128_1_1_0_0_n_n_wf

abbrev win0_0 : Pipeline.Window sig grid0 :=
  Pipeline.Window.ofSpec (Memref.whole main_arg0) S1x128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x128x50176 : Shape := ⟨3, ![8, 128, 50176]⟩
abbrev S8x128x128 : Shape := ⟨3, ![8, 128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x128x50176, .f32⟩
  | .hbm, ⟨1, _⟩ => ⟨S8x128x50176, .f32⟩
  | .hbm, ⟨2, _⟩ => ⟨S8x128x128, .f32⟩
  | _, _ => ⟨S8x128x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x128x50176_S8x128x50176_S8x128x128_2_2_1_1_0_0_wf : DotDims.WF S8x128x50176 S8x128x50176 S8x128x128 [2] [2] [1] [1] [0] [0]

variable [Facts₀]

def dot_S8x128x50176_S8x128x50176_S8x128x128_2_2_1_1_0_0 : DotDims S8x128x50176 S8x128x50176 S8x128x128 where
  lhsContracting := [2]
  rhsContracting := [2]
  lhsNonContracting := [1]
  rhsNonContracting := [1]
  lhsBatch := [0]
  rhsBatch := [0]
  wf := dot_S8x128x50176_S8x128x50176_S8x128x128_2_2_1_1_0_0_wf

class Facts : Prop extends Facts₀ where

variable [Facts]
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Spec.lean ====
/-
  Region aggregation, the mathematics. For every batch b, out[b, r, q] is the inner product over the 50176 flattened
  spatial positions h of row r of x[b] with row q of mask[b]. The positions come in four consecutive tiles of 12544;
  the sum over all positions is the sum of the four tile sums, by associativity and commutativity of addition on the
  extended reals alone (no finiteness is used anywhere).
-/
import Idealize.ShloMosaic.PureOps.Ideal
import Idealize.ShloMosaic.Lib.ValueIdx
import proofs.«156165_j63745904607805_1_alg».proof.Proof.LibBlockSum

noncomputable section

namespace Cert.RegionAgg

open Idealize.ShloMosaic Idealize.ShloMosaic.ValueIdx
open scoped BigOperators

/-- An input array: batch, row, spatial position. -/
abbrev Arr : Type := (⟨3, ![8, 128, 50176]⟩ : Shape).Idx → EReal

/-- The product at spatial position `h` that enters out[b, r, q]. -/
def term (X M : Arr) (b : Fin 8) (r q : Fin 128) (h : Fin 50176) : EReal :=
  X (ix3 b r h) * M (ix3 b q h)

/-- The whole result: every entry the inner product over all spatial positions. -/
def total (X M : Arr) : (⟨3, ![8, 128, 128]⟩ : Shape).Idx → EReal :=
  fun i => ∑ h : Fin 50176, term X M (i 0) (i 1) (i 2) h

/-- The inner product restricted to spatial tile `s`: positions 12544 s + x for x < 12544 (the guard holds for s < 4). -/
def tile (X M : Arr) (b : Fin 8) (r q : Fin 128) (s : ℕ) : EReal :=
  ∑ x : Fin 12544, (if h : 12544 * s + x.val < 50176 then term X M b r q ⟨12544 * s + x.val, h⟩ else 0)

/-- The sum of the first `n` tile sums: what the accumulator holds after `n` tiles of one batch. -/
def upTo (X M : Arr) (b : Fin 8) (r q : Fin 128) (n : ℕ) : EReal :=
  ∑ s ∈ Finset.range n, tile X M b r q s

theorem upTo_zero (X M : Arr) (b : Fin 8) (r q : Fin 128) : upTo X M b r q 0 = 0 := Finset.sum_range_zero _

theorem upTo_succ (X M : Arr) (b : Fin 8) (r q : Fin 128) (n : ℕ) :
    upTo X M b r q (n + 1) = upTo X M b r q n + tile X M b r q n := Finset.sum_range_succ _ _

/-- Four tiles make the whole inner product. -/
theorem upTo_four (X M : Arr) (b : Fin 8) (r q : Fin 128) :
    upTo X M b r q 4 = ∑ h : Fin 50176, term X M b r q h :=
  (Cert.LibBlockSum.sum_fin_blocks 4 12544 rfl (term X M b r q)).symm

end Cert.RegionAgg

end
-- ==== Proof.Step.lean ====
/-
  One step of the accumulation, read at an entry. At the ideal instance the step's stored value at (r, q) is the
  accumulator's entry plus the inner product over the 12544 positions of the tile of row r of the x block with row q
  of the mask block: the change of format to bf16 is the identity, the matrix unit's product into a zero accumulator
  is the plain sum over the contracted axis, and the block's leading unit axis is dropped by the cast.
  The reset value is zero at every entry, and the value copied out is the accumulator with a unit axis put in front.
-/
import proofs.«156165_j63745904607805_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Cert.KernelIdeal Cert.KernelIdeal.Gen Idealize.ShloMosaic Idealize.ShloMosaic.ValueIdx
open scoped BigOperators

/-! ## The contraction's operand indices, axis by axis -/

theorem lhs_row (i : S128x128.Idx) (k : dot_S128x12544_S128x12544_S128x128_1_1_0_0_n_n.contr.Idx) :
    (dot_S128x12544_S128x12544_S128x128_1_1_0_0_n_n.lhsIdx i k 0).val = (i 0).val := by
  unfold DotDims.lhsIdx
  rw [dif_neg (show ¬(0 : Fin S128x12544.rank) ∈ dot_S128x12544_S128x12544_S128x128_1_1_0_0_n_n.lhsBatch by decide), dif_pos (show (0 : Fin S128x12544.rank) ∈ dot_S128x12544_S128x12544_S128x128_1_1_0_0_n_n.lhsNonContracting by decide)]
  rfl
theorem lhs_pos (i : S128x128.Idx) (k : dot_S128x12544_S128x12544_S128x128_1_1_0_0_n_n.contr.Idx) :
    (dot_S128x12544_S128x12544_S128x128_1_1_0_0_n_n.lhsIdx i k 1).val = (k ⟨0, by decide⟩).val :=
  dot_S128x12544_S128x12544_S128x128_1_1_0_0_n_n.lhsIdx_val_of_single rfl i k
theorem rhs_row (i : S128x128.Idx) (k : dot_S128x12544_S128x12544_S128x128_1_1_0_0_n_n.contr.Idx) :
    (dot_S128x12544_S128x12544_S128x128_1_1_0_0_n_n.rhsIdx i k 0).val = (i 1).val := by
  unfold DotDims.rhsIdx
  rw [dif_neg (show ¬(0 : Fin S128x12544.rank) ∈ dot_S128x12544_S128x12544_S128x128_1_1_0_0_n_n.rhsBatch by decide), dif_pos (show (0 : Fin S128x12544.rank) ∈ dot_S128x12544_S128x12544_S128x128_1_1_0_0_n_n.rhsNonContracting by decide)]
  rfl
theorem rhs_pos (i : S128x128.Idx) (k : dot_S128x12544_S128x12544_S128x128_1_1_0_0_n_n.contr.Idx) :
    (dot_S128x12544_S128x12544_S128x128_1_1_0_0_n_n.rhsIdx i k 1).val = (k ⟨0, by decide⟩).val :=
  dot_S128x12544_S128x12544_S128x128_1_1_0_0_n_n.rhsIdx_val_of_single rfl i k

/-! ## The three stored values at an entry -/

/-- The reset value is zero everywhere. -/
theorem reset_apply (j : S128x128.Idx) : k0_pay1 (F := Ideal) j = (0 : EReal) := by
  unfold k0_pay1
  rw [shapeCast_self]
  show Ideal.ofBits .f32 0x00000000#32 = _
  exact Ideal.ofBits_zero_f32

/-- The step: the accumulator's entry plus the tile's inner product of row `r` of the x block with row `q` of the mask block. -/
theorem step_apply (xb mb : Vec Ideal S1x128x12544 .f32) (acc : Vec Ideal S128x128 .f32) (r q : Fin 128) :
    k0_pay2 (F := Ideal) xb mb acc (ix2 r q)
      = acc (ix2 r q) + ∑ x : Fin 12544, xb (ix3 (0 : Fin 1) r x) * mb (ix3 (0 : Fin 1) q x) := by
  unfold k0_pay2
  rw [shapeCast_self]
  show (acc (ix2 r q) : EReal) + FloatOps.matmul (F := Ideal) dot_S128x12544_S128x12544_S128x128_1_1_0_0_n_n none _ _ (constant S128x128 .f32 0x00000000#32) (ix2 r q) = _
  rw [Ideal.matmul_constant_zero_apply, ← Equiv.sum_comp (contrEquiv1 dot_S128x12544_S128x12544_S128x128_1_1_0_0_n_n 12544 rfl rfl).symm]
  refine congrArg (acc (ix2 r q) + ·) (Finset.sum_congr rfl fun x _ => ?_)
  have hx := contrEquiv1_symm_val dot_S128x12544_S128x12544_S128x128_1_1_0_0_n_n 12544 rfl rfl x
  have el : dot_S128x12544_S128x12544_S128x128_1_1_0_0_n_n.lhsIdx (ix2 r q) ((contrEquiv1 dot_S128x12544_S128x12544_S128x128_1_1_0_0_n_n 12544 rfl rfl).symm x) = ix2 r x := funext fun a => Fin.ext (by
    match a with
    | ⟨0, _⟩ => exact lhs_row _ _
    | ⟨1, _⟩ => exact (lhs_pos _ _).trans hx)
  have er : dot_S128x12544_S128x12544_S128x128_1_1_0_0_n_n.rhsIdx (ix2 r q) ((contrEquiv1 dot_S128x12544_S128x12544_S128x128_1_1_0_0_n_n 12544 rfl rfl).symm x) = ix2 q x := funext fun a => Fin.ext (by
    match a with
    | ⟨0, _⟩ => exact rhs_row _ _
    | ⟨1, _⟩ => exact (rhs_pos _ _).trans hx)
  rw [el, er]
  show shapeCast S128x12544 xb _ (ix2 r x) * shapeCast S128x12544 mb _ (ix2 q x) = _
  rw [shapeCast_1ab_ab_apply, shapeCast_1ab_ab_apply]

/-- The value copied out is the accumulator under a leading unit axis. -/
theorem copy_apply (acc : Vec Ideal S128x128 .f32) (u : Fin 1) (r q : Fin 128) :
    k0_pay3 (F := Ideal) acc (ix3 u r q) = acc (ix2 r q) := by
  unfold k0_pay3
  exact shapeCast_ab_1ab_apply acc _ u r q

end Cert.KernelIdeal.Step

end
-- ==== Proof.Pieces.lean ====
/-
  What each of the three control cases leaves behind, as values. At a batch's first tile the accumulator is reset to
  zero and then takes one step from zero; at a middle tile it takes one step from what the tile before left; at the
  last tile it takes one step and the result is copied out under a leading unit axis. Each store covers its whole
  buffer and each load reads a whole buffer, so what is read back is the stored value itself.
-/
import proofs.«156165_j63745904607805_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First tile of a batch: the accumulator ends at one step from the zero block. -/
theorem first_acc (c : Dev nD) (i : grid0.Coords) (a2 : Memref sig .tc .vmem S1x128x12544 .f32) (h2 : a2.IsWhole) (a3 : Memref sig .tc .vmem S1x128x12544 .f32) (h3 : a3.IsWhole) (a4 : Memref sig .tc .vmem S1x128x128 .f32) (h4 : a4.IsWhole) (a5 : Memref sig .tc .vmem S128x128 .f32) (h5 : a5.IsWhole) (hc0 : cond0_0 i) (hc1 : ¬cond0_1 i)
    (xb mb : Vec F S1x128x12544 .f32) :
    sout0_A_0 c i a2 h2 a3 h3 a4 h4 a5 h5 hc0 hc1 xb mb = k0_pay2 xb mb (k0_pay1 (F := F)) := by
  unfold sout0_A_0
  rw [View.read_writes_eq_canon _ _ _ (scover0_A_0 c i a2 h2 a3 h3 a4 h4 a5 h5 hc0 hc1 xb mb)]
  unfold kernelRun0_A
  dsimp only
  sl_unfold_words
  rw [View.canon_cons_unit_zero (S := S128x128) origin2, View.readCov_unit_zero (S := S128x128) _ origin2]
  simp only [View.readAt_eq_ld, h2.read_unread, h3.read_unread, View.ld_unit_zero (S := S1x128x12544) origin3]

/-- A middle tile: one step from what the tile before left. -/
theorem middle_acc (c : Dev nD) (i : grid0.Coords) (a2 : Memref sig .tc .vmem S1x128x12544 .f32) (h2 : a2.IsWhole) (a3 : Memref sig .tc .vmem S1x128x12544 .f32) (h3 : a3.IsWhole) (a4 : Memref sig .tc .vmem S1x128x128 .f32) (h4 : a4.IsWhole) (a5 : Memref sig .tc .vmem S128x128 .f32) (h5 : a5.IsWhole) (hc0 : ¬cond0_0 i) (hc1 : ¬cond0_1 i)
    (xb mb : Vec F S1x128x12544 .f32) (acc : Vec F S128x128 .f32) :
    sout0_B_0 c i a2 h2 a3 h3 a4 h4 a5 h5 hc0 hc1 xb mb acc = k0_pay2 xb mb acc := by
  unfold sout0_B_0
  rw [View.read_writes_eq_canon _ _ _ (scover0_B_0 c i a2 h2 a3 h3 a4 h4 a5 h5 hc0 hc1 xb mb acc)]
  unfold kernelRun0_B
  dsimp only
  sl_unfold_words
  rw [View.canon_unit_zero origin2]
  simp only [View.readAt_eq_ld, h2.read_unread, h3.read_unread, h5.read_unread, View.ld_unit_zero (S := S1x128x12544) origin3,
    View.ld_unit_zero (S := S128x128) origin2]

/-- The last tile: the accumulator takes one more step, -/
theorem last_acc (c : Dev nD) (i : grid0.Coords) (a2 : Memref sig .tc .vmem S1x128x12544 .f32) (h2 : a2.IsWhole) (a3 : Memref sig .tc .vmem S1x128x12544 .f32) (h3 : a3.IsWhole) (a4 : Memref sig .tc .vmem S1x128x128 .f32) (h4 : a4.IsWhole) (a5 : Memref sig .tc .vmem S128x128 .f32) (h5 : a5.IsWhole) (hc0 : ¬cond0_0 i) (hc1 : cond0_1 i)
    (xb mb : Vec F S1x128x12544 .f32) (acc : Vec F S128x128 .f32) :
    sout0_C_0 c i a2 h2 a3 h3 a4 h4 a5 h5 hc0 hc1 xb mb acc = k0_pay2 xb mb acc := by
  unfold sout0_C_0
  rw [View.read_writes_eq_canon _ _ _ (scover0_C_0 c i a2 h2 a3 h3 a4 h4 a5 h5 hc0 hc1 xb mb acc)]
  unfold kernelRun0_C
  dsimp only
  sl_unfold_words
  rw [View.canon_unit_zero origin2]
  simp only [View.readAt_eq_ld, h2.read_unread, h3.read_unread, h5.read_unread, View.ld_unit_zero (S := S1x128x12544) origin3,
    View.ld_unit_zero (S := S128x128) origin2]

/-- and the output block is that accumulator, copied out. -/
theorem last_out (c : Dev nD) (i : grid0.Coords) (a2 : Memref sig .tc .vmem S1x128x12544 .f32) (h2 : a2.IsWhole) (a3 : Memref sig .tc .vmem S1x128x12544 .f32) (h3 : a3.IsWhole) (a4 : Memref sig .tc .vmem S1x128x128 .f32) (h4 : a4.IsWhole) (a5 : Memref sig .tc .vmem S128x128 .f32) (h5 : a5.IsWhole) (hc0 : ¬cond0_0 i) (hc1 : cond0_1 i)
    (xb mb : Vec F S1x128x12544 .f32) (acc : Vec F S128x128 .f32) :
    out0_C_2 c i a2 h2 a3 h3 a4 h4 a5 h5 hc0 hc1 xb mb acc = k0_pay3 (k0_pay2 xb mb acc) := by
  unfold out0_C_2
  rw [View.read_writes_eq_canon _ _ _ (cover0_C_2 c i a2 h2 a3 h3 a4 h4 a5 h5 hc0 hc1 xb mb acc)]
  unfold kernelRun0_C
  dsimp only
  sl_unfold_words
  rw [View.canon_unit_zero origin3]
  simp only [View.readCov_unit_zero (S := S128x128) _ origin2, View.readAt_eq_ld, h2.read_unread, h3.read_unread, h5.read_unread,
    View.ld_unit_zero (S := S1x128x12544) origin3, View.ld_unit_zero (S := S128x128) origin2]

end Cert.KernelIdeal.Pieces

end
-- ==== Proof.Blocks.lean ====
/-
  The input blocks, read off the arrays. Grid point t is batch t / 4, spatial tile t % 4: the x window's block there
  is x[t / 4, :, 12544 (t % 4) : 12544 (t % 4) + 12544] and the mask window's block is the same slab of the mask.
  Hence the step's inner product over a block's 12544 positions is the specification's tile sum for that batch
  and tile.
-/
import proofs.«156165_j63745904607805_1_alg».proof.Proof.Gen.KernelIdeal.Frame
import proofs.«156165_j63745904607805_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.RegionAgg
open scoped BigOperators

variable {F : FTy → Type} [FloatOps F]
variable (m : (ℓ : Loc nD τ sig) → Buf (Elt F) ℓ)

/-- The two input arrays and the two input blocks at a point, at their literal types. -/
abbrev xarr (c : Dev nD) : Vec F S8x128x50176 .f32 := V m c main_arg0
abbrev marr (c : Dev nD) : Vec F S8x128x50176 .f32 := V m c main_arg1
abbrev xblk (c : Dev nD) (t : Fin cfg0.N) : Vec F S1x128x12544 .f32 := iblk m c 0 t
abbrev mblk (c : Dev nD) (t : Fin cfg0.N) : Vec F S1x128x12544 .f32 := iblk m c 1 t

/-- The two input windows' block indices at point t: batch t / 4, row block 0, spatial tile t % 4. -/
theorem block_index : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4 :=
  (by decide +kernel : ∀ t : Fin grid0.N, _)

/-- The x block's entry (r, x) is x[t / 4, r, 12544 (t % 4) + x]. -/
theorem xblk_apply (c : Dev nD) (t : Fin cfg0.N) (u : Fin 1) (r : Fin 128) (x : Fin 12544) (b : Fin 8) (hb : b.val = t.val / 4)
    (hp : 12544 * (t.val % 4) + x.val < 50176) :
    xblk m c t (ix3 u r x) = xarr m c (ix3 b r ⟨12544 * (t.val % 4) + x.val, hp⟩) := by
  obtain ⟨e0, e1, e2, -, -, -⟩ := block_index t
  unfold xblk iblk
  rw [View.read_apply]
  show V m c main_arg0 _ = V m c main_arg0 _
  congr 1
  funext a
  apply Fin.ext
  have hu : u.val = 0 := by omega
  match a with
  | ⟨0, _⟩ => show win0_0.index t (0 : Fin 3) * 1 + 1 * u.val = b.val; omega
  | ⟨1, _⟩ => show win0_0.index t (1 : Fin 3) * 128 + 1 * r.val = r.val; omega
  | ⟨2, _⟩ => show win0_0.index t (2 : Fin 3) * 12544 + 1 * x.val = 12544 * (t.val % 4) + x.val; omega

/-- The mask block's entry (q, x) is mask[t / 4, q, 12544 (t % 4) + x]. -/
theorem mblk_apply (c : Dev nD) (t : Fin cfg0.N) (u : Fin 1) (q : Fin 128) (x : Fin 12544) (b : Fin 8) (hb : b.val = t.val / 4)
    (hp : 12544 * (t.val % 4) + x.val < 50176) :
    mblk m c t (ix3 u q x) = marr m c (ix3 b q ⟨12544 * (t.val % 4) + x.val, hp⟩) := by
  obtain ⟨-, -, -, e0, e1, e2⟩ := block_index t
  unfold mblk iblk
  rw [View.read_apply]
  show V m c main_arg1 _ = V m c main_arg1 _
  congr 1
  funext a
  apply Fin.ext
  have hu : u.val = 0 := by omega
  match a with
  | ⟨0, _⟩ => show win0_1.index t (0 : Fin 3) * 1 + 1 * u.val = b.val; omega
  | ⟨1, _⟩ => show win0_1.index t (1 : Fin 3) * 128 + 1 * q.val = q.val; omega
  | ⟨2, _⟩ => show win0_1.index t (2 : Fin 3) * 12544 + 1 * x.val = 12544 * (t.val % 4) + x.val; omega

end Cert.KernelIdeal.Blocks

/-! ## At the ideal instance: a block pair's inner product is the tile sum -/

namespace Cert.KernelIdeal.Blocks

open Cert.KernelIdeal Cert.KernelIdeal.Gen Idealize.ShloMosaic Idealize.ShloMosaic.TcCoe Idealize.SL.Sem
open Idealize.ShloMosaic.ValueIdx Cert.RegionAgg
open scoped BigOperators

variable (m : (ℓ : Loc nD τ sig) → Buf (Elt Ideal) ℓ)

theorem block_inner (c : Dev nD) (t : Fin cfg0.N) (b : Fin 8) (hb : b.val = t.val / 4) (r q : Fin 128) :
    (∑ x : Fin 12544, (xblk m c t (ix3 (0 : Fin 1) r x) : EReal) * mblk m c t (ix3 (0 : Fin 1) q x))
      = tile (xarr m c) (marr m c) b r q (t.val % 4) := by
  unfold tile
  refine Finset.sum_congr rfl fun x _ => ?_
  have hp : 12544 * (t.val % 4) + x.val < 50176 := by have := x.isLt; omega
  rw [dif_pos hp, xblk_apply m c t 0 r x b hb hp, mblk_apply m c t 0 q x b hb hp]
  rfl

end Cert.KernelIdeal.Blocks

end
-- ==== Proof.Acc.lean ====
/-
  The accumulator, point by point. Within batch b = n / 4 the scratch after grid point n holds, at entry (r, q), the
  sum of the batch's first n % 4 + 1 tile sums: at the batch's first tile it is one step from zero, afterwards one
  step from what the point before left. At the batch's last tile the output block is that accumulator copied out,
  which by then is the whole inner product.
-/
import proofs.«156165_j63745904607805_1_alg».proof.Proof.Gen.KernelIdeal.Frame
import proofs.«156165_j63745904607805_1_alg».proof.Proof.Spec
import proofs.«156165_j63745904607805_1_alg».proof.Proof.Step
import proofs.«156165_j63745904607805_1_alg».proof.Proof.Pieces
import proofs.«156165_j63745904607805_1_alg».proof.Proof.Blocks

noncomputable section

namespace Cert.KernelIdeal.Acc

open Cert.KernelIdeal Cert.KernelIdeal.Gen Idealize.ShloMosaic Idealize.ShloMosaic.TcCoe Idealize.SL.Sem
open Idealize.ShloMosaic.ValueIdx Cert.RegionAgg Cert.KernelIdeal.Blocks
open scoped BigOperators

/-! ## What a point leaves, as the step function of its blocks (any instance) -/

section AnyInstance

variable {F : FTy → Type} [FloatOps F]
variable (m : (ℓ : Loc nD τ sig) → Buf (Elt F) ℓ)

/-- The accumulator after a point, and what the point before left in it. -/
abbrev accAfter (c : Dev nD) (t : Fin cfg0.N) : Vec F S128x128 .f32 := (outsAt0 m c t.val t.isLt).2
abbrev accBefore (c : Dev nD) (t : Fin cfg0.N) : Vec F S128x128 .f32 :=
  (outsAt0 m c (t.val - 1) (Nat.lt_of_le_of_lt (Nat.sub_le _ _) t.isLt)).2
abbrev outAfter (c : Dev nD) (t : Fin cfg0.N) : Vec F S1x128x128 .f32 := (outsAt0 m c t.val t.isLt).1

/-- A batch's first tile: one step from the zero block. -/
theorem acc_first (c : Dev nD) (t : Fin cfg0.N) (h0 : t.val % 4 = 0) :
    accAfter m c t = k0_pay2 (xblk m c t) (mblk m c t) (k0_pay1 (F := F)) := by
  have h1 : ¬t.val % 4 = 3 := by omega
  unfold accAfter
  rw [outsAt0_A m c t h0 h1]
  dsimp only
  exact Pieces.first_acc (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (xblk m c t) (mblk m c t)

/-- Any later tile: one step from what the point before left. -/
theorem acc_later (c : Dev nD) (t : Fin cfg0.N) (h0 : ¬t.val % 4 = 0) :
    accAfter m c t = k0_pay2 (xblk m c t) (mblk m c t) (accBefore m c t) := by
  unfold accAfter
  by_cases h1 : t.val % 4 = 3
  · rw [outsAt0_C m c t h0 h1]
    dsimp only
    exact Pieces.last_acc (F := F) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (xblk m c t) (mblk m c t) (accBefore m c t)
  · rw [outsAt0_B m c t h0 h1]
    dsimp only
    exact Pieces.middle_acc (F := F) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (xblk m c t) (mblk m c t) (accBefore m c t)

/-- A batch's last tile: the output block is the accumulator after the point, copied out. -/
theorem out_last (c : Dev nD) (t : Fin cfg0.N) (h3 : t.val % 4 = 3) :
    outAfter m c t = k0_pay3 (accAfter m c t) := by
  have h0 : ¬t.val % 4 = 0 := by omega
  rw [acc_later m c t h0]
  unfold outAfter
  rw [outsAt0_C m c t h0 h3]
  dsimp only
  exact Pieces.last_out (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h3) (xblk m c t) (mblk m c t) (accBefore m c t)

end AnyInstance

/-! ## At the ideal instance: the accumulator is the partial sum of tile sums -/

variable (m : (ℓ : Loc nD τ sig) → Buf (Elt Ideal) ℓ)

theorem acc_eq (c : Dev nD) : ∀ (n : ℕ) (h : n < cfg0.N) (b : Fin 8) (hb : b.val = n / 4) (r q : Fin 128),
    (accAfter m c ⟨n, h⟩ (ix2 r q) : EReal) = upTo (xarr m c) (marr m c) b r q (n % 4 + 1) := by
  intro n
  induction n with
  | zero =>
    intro h b hb r q
    rw [acc_first m c ⟨0, h⟩ rfl, Step.step_apply, Step.reset_apply, block_inner m c ⟨0, h⟩ b hb r q]
    show (0 : EReal) + tile (xarr m c) (marr m c) b r q 0 = upTo (xarr m c) (marr m c) b r q 1
    rw [upTo_succ, upTo_zero]
  | succ n ih =>
    intro h b hb r q
    by_cases h0 : (n + 1) % 4 = 0
    · rw [acc_first m c ⟨n + 1, h⟩ h0, Step.step_apply, Step.reset_apply, block_inner m c ⟨n + 1, h⟩ b hb r q]
      show (0 : EReal) + tile (xarr m c) (marr m c) b r q ((n + 1) % 4) = upTo (xarr m c) (marr m c) b r q ((n + 1) % 4 + 1)
      rw [h0, upTo_succ, upTo_zero]
    · rw [acc_later m c ⟨n + 1, h⟩ h0, Step.step_apply, block_inner m c ⟨n + 1, h⟩ b hb r q]
      show (accAfter m c ⟨n, Nat.lt_of_succ_lt h⟩ (ix2 r q) : EReal) + tile (xarr m c) (marr m c) b r q ((n + 1) % 4)
        = upTo (xarr m c) (marr m c) b r q ((n + 1) % 4 + 1)
      rw [ih (Nat.lt_of_succ_lt h) b (by omega) r q, show n % 4 + 1 = (n + 1) % 4 from by omega, ← upTo_succ]

/-- At a batch's last tile the output block holds the whole inner products of the batch. -/
theorem out_apply (c : Dev nD) (t : Fin cfg0.N) (h3 : t.val % 4 = 3) (b : Fin 8) (hb : b.val = t.val / 4) (u : Fin 1) (r q : Fin 128) :
    (outAfter m c t (ix3 u r q) : EReal) = ∑ h : Fin 50176, term (xarr m c) (marr m c) b r q h := by
  rw [out_last m c t h3, Step.copy_apply, acc_eq m c t.val t.isLt b hb r q, h3]
  exact upTo_four _ _ b r q

end Cert.KernelIdeal.Acc

end
-- ==== Proof.Whole.lean ====
/-
  From blocks to the array. The output window writes a block back only at a batch's last tile (points 4 b + 3), and
  the block written there is out[b, :, :]; these eight blocks tile the result array, so after the run every entry
  out[b, r, q] is the inner product over all 50176 positions of row r of x[b] with row q of mask[b].
-/
import proofs.«156165_j63745904607805_1_alg».proof.Proof.Gen.KernelIdeal.Value
import proofs.«156165_j63745904607805_1_alg».proof.Proof.Acc

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RegionAgg Cert.KernelIdeal.Blocks Cert.KernelIdeal.Acc
open scoped BigOperators

variable (m : (ℓ : Loc nD τ sig) → Buf (Elt Ideal) ℓ) (ρ : Dev nD → PrngReg)

/-- The result array's contents: the specification's function of the two argument arrays. -/
abbrev result (c : Dev nD) : Buf (Elt Ideal) ((c : Thread nD τ).loc main_v0) :=
  total (m ((c : Thread nD τ).loc main_arg0)) (m ((c : Thread nD τ).loc main_arg1))

/-- The output window's block index at point t: batch t / 4, and the block spans both row axes. -/
theorem out_index : ∀ t : Fin cfg0.N,
    win0_2.index t (0 : Fin 3) = t.val / 4 ∧ win0_2.index t (1 : Fin 3) = 0 ∧ win0_2.index t (2 : Fin 3) = 0 :=
  (by decide +kernel : ∀ t : Fin grid0.N, _)

/-- At a batch's last tile the output block, at any of its entries, holds the batch's whole inner product for that
    entry's two rows. -/
theorem out_at (c : Dev nD) (t : Fin cfg0.N) (h3 : t.val % 4 = 3) (b : Fin 8) (hb : b.val = t.val / 4) (y : S1x128x128.Idx) :
    (outAfter m c t y : EReal) = ∑ h : Fin 50176, term (xarr m c) (marr m c) b (y 1) (y 2) h := by
  obtain ⟨u, r, q, rfl⟩ : ∃ (u : Fin 1) (r q : Fin 128), y = ix3 u r q := ⟨y 0, y 1, y 2, eq_ix3 y⟩
  exact out_apply m c t h3 b hb u r q

/-- The specification at an entry whose coordinates are known. -/
theorem total_at (X M : Arr) (i : (⟨3, ![8, 128, 128]⟩ : Shape).Idx) (b : Fin 8) (r q : Fin 128)
    (h0 : (i 0).val = b.val) (h1 : (i 1).val = r.val) (h2 : (i 2).val = q.val) :
    total X M i = ∑ h : Fin 50176, term X M b r q h := by
  obtain rfl : i 0 = b := Fin.ext h0
  obtain rfl : i 1 = r := Fin.ext h1
  obtain rfl : i 2 = q := Fin.ext h2
  rfl

/-- What a writing point writes back is its block of the result. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have hN : t.val < 32 := lt_of_lt_of_eq t.isLt (show cfg0.N = 32 from N_0)
  obtain ⟨e0, e1, e2⟩ := out_index t
  rw [Value.flushed2 m c t]
  funext y
  rw [View.read_apply]
  refine (out_at m c t h3 ⟨t.val / 4, by omega⟩ rfl y).trans ?_
  rw [cast_eq]
  have hy0 : (y 0).val < 1 := (y 0).isLt
  refine (total_at (xarr m c) (marr m c) _ _ _ _ ?_ ?_ ?_).symm
  · show win0_2.index t (0 : Fin 3) * 1 + 1 * (y 0).val = t.val / 4; omega
  · show win0_2.index t (1 : Fin 3) * 128 + 1 * (y 1).val = (y 1).val; omega
  · show win0_2.index t (2 : Fin 3) * 128 + 1 * (y 2).val = (y 2).val; omega

/-- An entry of the array lies in point t's block iff each coordinate lies in the block's range on its axis. -/
theorem mem_block (t : Fin cfg0.N) (i : S8x128x128.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v0).slice (win0_2.rect t)).set ↔ _
  rw [View.set_slice_whole, Rect.mem_set_unit]
  exact Iff.rfl

/-- Entry (b, r, q) lies in the block written at point 4 b + 3. -/
theorem covered (i : S8x128x128.Idx) : ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 128 := (i 2).isLt
  have hlt : 4 * (i 0).val + 3 < cfg0.N := lt_of_lt_of_eq (by omega : 4 * (i 0).val + 3 < 32) N_0.symm
  refine ⟨⟨4 * (i 0).val + 3, hlt⟩, (flush0_2 _).mpr (by show (4 * (i 0).val + 3) % 4 = 3; omega), ?_⟩
  obtain ⟨e0, e1, e2⟩ := out_index ⟨4 * (i 0).val + 3, hlt⟩
  have e0' : win0_2.index ⟨4 * (i 0).val + 3, hlt⟩ (0 : Fin 3) = (i 0).val := by
    rw [e0]; show (4 * (i 0).val + 3) / 4 = (i 0).val; omega
  rw [mem_block]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 128 ≤ (i 1).val ∧ (i 1).val < win0_2.index _ (1 : Fin 3) * 128 + 128; omega
  | ⟨2, _⟩ => show win0_2.index _ (2 : Fin 3) * 128 ≤ (i 2).val ∧ (i 2).val < win0_2.index _ (2 : Fin 3) * 128 + 128; omega

/-- After the run the result array is the specification's function of the arguments. -/
theorem final (c : Dev nD) : (dats m 0 c).arrAt 2 cfg0.N = result m c :=
  (dats m 0 c).arrAt_eq_of_cover 2 (result m c) (fun t hf => flushed_eq m c t hf) (covered)

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Einsum.lean ====
/-
  The reference. Its one contraction over the spatial axis, batched over the first axis, is at every entry (b, r, q)
  the sum over all 50176 positions h of x[b, r, h] times mask[b, q, h]: the specification's function.
-/
import proofs.«156165_j63745904607805_1_alg».proof.Proof.Gen.ReferenceIdeal.Read
import proofs.«156165_j63745904607805_1_alg».proof.Proof.Spec

noncomputable section

namespace Cert.ReferenceIdeal.Einsum

open Cert.ReferenceIdeal Cert.ReferenceIdeal.Gen Idealize.ShloMosaic Idealize.ShloMosaic.TcCoe Idealize.SL.Sem
open Idealize.ShloMosaic.ValueIdx Cert.RegionAgg
open scoped BigOperators

theorem einsum_eq (X M : (⟨S8x128x50176, .f32⟩ : BufTy).Contents (Elt Ideal)) :
    Read.val_main_v0 (F := Ideal) X M = total X M := by
  funext i
  rw [Read.val_main_v0_apply]
  unfold total term
  refine Finset.sum_congr rfl fun k _ => ?_
  have el : Read.lidx_main_v0 i k = ix3 (i 0) (i 1) k := funext fun a => Fin.ext (by
    match a with
    | ⟨0, _⟩ => rfl
    | ⟨1, _⟩ => rfl
    | ⟨2, _⟩ => rfl)
  have er : Read.ridx_main_v0 i k = ix3 (i 0) (i 2) k := funext fun a => Fin.ext (by
    match a with
    | ⟨0, _⟩ => rfl
    | ⟨1, _⟩ => rfl
    | ⟨2, _⟩ => rfl)
  rw [el, er]
  rfl

end Cert.ReferenceIdeal.Einsum

end
-- ==== Proof.lean ====
/-
  Region aggregation: out[b, r, q] = sum over the 50176 flattened spatial positions h of x[b, r, h] * mask[b, q, h].
  The kernel walks a grid of 8 batches by 4 spatial tiles of 12544 positions; per batch it zeroes a [128, 128]
  accumulator at the first tile, adds at every tile the product of the x tile with the transposed mask tile (its
  operands narrowed to bf16, which over the extended reals changes nothing), and copies the accumulator out at the
  last tile. The reference contracts the whole spatial axis at once. The two agree entry by entry because a sum over
  4 * 12544 consecutive positions is the sum of its four consecutive runs of 12544, which needs only that addition is
  associative and commutative: the inputs' finiteness is never used. The idealization rewrote nothing, so that claim
  is trivial; the three frames are the kernel's run (at both instances) and the reference's run with the value dropped.
-/
import proofs.«156165_j63745904607805_1_alg».proof.Defs
import proofs.«156165_j63745904607805_1_alg».proof.Proof.Gen.Kernel
import proofs.«156165_j63745904607805_1_alg».proof.Proof.Gen.Kernel.Skeleton
import proofs.«156165_j63745904607805_1_alg».proof.Proof.Gen.Kernel.Launch
import proofs.«156165_j63745904607805_1_alg».proof.Proof.Gen.Kernel.Points
import proofs.«156165_j63745904607805_1_alg».proof.Proof.Gen.Kernel.Frame
import proofs.«156165_j63745904607805_1_alg».proof.Proof.Gen.KernelIdeal
import proofs.«156165_j63745904607805_1_alg».proof.Proof.Gen.KernelIdeal.Skeleton
import proofs.«156165_j63745904607805_1_alg».proof.Proof.Gen.KernelIdeal.Launch
import proofs.«156165_j63745904607805_1_alg».proof.Proof.Gen.KernelIdeal.Points
import proofs.«156165_j63745904607805_1_alg».proof.Proof.Gen.KernelIdeal.Frame
import proofs.«156165_j63745904607805_1_alg».proof.Proof.Gen.KernelIdeal.Value
import proofs.«156165_j63745904607805_1_alg».proof.Proof.Gen.ReferenceIdeal
import proofs.«156165_j63745904607805_1_alg».proof.Proof.Gen.ReferenceIdeal.Run
import proofs.«156165_j63745904607805_1_alg».proof.Proof.Gen.ReferenceIdeal.Read
import proofs.«156165_j63745904607805_1_alg».proof.Proof.Gen.Pre_finite_inputs
import proofs.«156165_j63745904607805_1_alg».proof.Proof.Whole
import proofs.«156165_j63745904607805_1_alg».proof.Proof.Einsum
import Idealize.ShloMosaic.Adequacy
import Idealize.ShloMosaic.Init

noncomputable section

namespace Cert.Proof

open Idealize.ShloMosaic Idealize.SL.Sem

/-- Both idealized programs end with the result array at the specification's function of the (agreeing) arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.Einsum.einsum_eq _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
